-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg7 : FVec F S128 .f32) (main_arg8 : FVec F S128 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S500000 32) (main_arg1 : FVec F S100000x128 .f32) (main_arg2 : FVec F S128x128 .f32) (main_arg3 : FVec F S128 .f32) (main_arg4 : FVec F S1600000 .f32) (main_arg5 : IVec S1600000 32) (main_arg6 : IVec S1600000 32) (main_arg7 : FVec F S128 .f32) (main_arg8 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg4
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg7 main_arg8 main_v13 main_v16
-- ==== Kernel.lean ====
abbrev S500000 : Shape := ⟨1, ![500000]⟩
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S4000x128 : Shape := ⟨2, ![4000, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S4000 : Shape := ⟨1, ![4000]⟩
abbrev S4000x1 : Shape := ⟨2, ![4000, 1]⟩
abbrev S500000x1 : Shape := ⟨2, ![500000, 1]⟩
abbrev S500000x128 : Shape := ⟨2, ![500000, 128]⟩

abbrev nBuf : Space → Nat
  | .hbm => 60
  | .vmem => 12
  | .smem => 0
  | _ => 0

abbrev bufTy : (tb : Table) → Fin (tcTables nBuf tb) → BufTy
  | .hbm, ⟨0, _⟩ => ⟨S500000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S128, .f32⟩
  | .hbm, ⟨8, _⟩ => ⟨S128, .f32⟩
  | .hbm, ⟨9, _⟩ => ⟨S100000x128, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x128, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000x1, .i1⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x128, .f32⟩
  | .hbm, ⟨55, _⟩ => ⟨S_, .f32⟩
  | .hbm, ⟨56, _⟩ => ⟨S_, .f32⟩
  | .hbm, ⟨57, _⟩ => ⟨S500000x128, .i1⟩
  | .hbm, ⟨58, _⟩ => ⟨S500000x128, .f32⟩
  | .hbm, ⟨59, _⟩ => ⟨S500000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128, .f32⟩
  | .local _ .vmem, ⟨9, _⟩ => ⟨S128, .f32⟩
  | .local _ .vmem, ⟨10, _⟩ => ⟨S4000x128, .f32⟩
  | .local _ .vmem, ⟨11, _⟩ => ⟨S4000x128, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_c_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v31 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000 : Shape := ⟨1, ![500000]⟩
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S100000 : Shape := ⟨1, ![100000]⟩
abbrev S100000x1 : Shape := ⟨2, ![100000, 1]⟩
abbrev S500000x1 : Shape := ⟨2, ![500000, 1]⟩
abbrev S500000x128 : Shape := ⟨2, ![500000, 128]⟩

abbrev nBuf : Space → Nat
  | .hbm => 94
  | .vmem => 0
  | .smem => 0
  | _ => 0

abbrev bufTy : (tb : Table) → Fin (tcTables nBuf tb) → BufTy
  | .hbm, ⟨0, _⟩ => ⟨S500000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S128, .f32⟩
  | .hbm, ⟨8, _⟩ => ⟨S128, .f32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000, .f32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S500000, .i1⟩
  | .hbm, ⟨68, _⟩ => ⟨S_, .i32⟩
  | .hbm, ⟨69, _⟩ => ⟨S500000, .i32⟩
  | .hbm, ⟨70, _⟩ => ⟨S500000, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S500000, .i32⟩
  | .hbm, ⟨75, _⟩ => ⟨S500000, .i32⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000x1, .i1⟩
  | .hbm, ⟨80, _⟩ => ⟨S_, .i32⟩
  | .hbm, ⟨81, _⟩ => ⟨S500000, .i32⟩
  | .hbm, ⟨82, _⟩ => ⟨S500000, .i1⟩
  | .hbm, ⟨83, _⟩ => ⟨S_, .i32⟩
  | .hbm, ⟨84, _⟩ => ⟨S500000, .i32⟩
  | .hbm, ⟨85, _⟩ => ⟨S500000, .i32⟩
  | .hbm, ⟨86, _⟩ => ⟨S500000, .i32⟩
  | .hbm, ⟨87, _⟩ => ⟨S500000x1, .i32⟩
  | .hbm, ⟨88, _⟩ => ⟨S500000x128, .f32⟩
  | .hbm, ⟨89, _⟩ => ⟨S_, .f32⟩
  | .hbm, ⟨90, _⟩ => ⟨S_, .f32⟩
  | .hbm, ⟨91, _⟩ => ⟨S500000x128, .i1⟩
  | .hbm, ⟨92, _⟩ => ⟨S500000x128, .f32⟩
  | .hbm, ⟨93, _⟩ => ⟨S500000x128, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_c_10 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v58 : Ref sig .tc := ⟨.hbm, 93, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

class Facts : Prop extends Facts₀ where

variable [Facts]
-- ==== Proof.Spec.lean ====
/-
  The two dense stages as functions of whole arrays, index by index, over the extended reals, at any number of rows.

  `linear e w b` is the affine layer: entry (r, c) is the sum over q of e (r, q) · w (q, c), plus b c.
  `layerNorm h g b` clamps h at zero from below, then normalizes each row: with x q = max (h (r, q)) 0, the row mean
  μ = (∑ q, x q) / n, the deviations d q = x q − μ, the variance v = (∑ q, d q · d q) / n, entry (r, c) is
  d c · (v + ε)^(−1/2) · g c + b c. The divisor n and ε are the float words the programs carry (128.0 and the float
  nearest 1e-5), kept as words: the same word stands on both sides and is never evaluated.

  Both functions read, for entry (r, c), only row r of their first argument. So a block of rows of the result is the
  same function of the same block of rows of the argument (`linear_rows`, `layerNorm_rows`): that is why a kernel
  which walks the rows block by block computes the whole-array function.
-/
import Idealize.ShloMosaic.PureOps.Ideal
import Idealize.ShloMosaic.Lib.ValueIdx

noncomputable section

open scoped BigOperators

namespace Cert.Spec

open Idealize.ShloMosaic Idealize.ShloMosaic.ValueIdx

/-- The zero word, the row width 128.0 and the stabilizer ε, as the programs spell them. -/
def zero : EReal := Ideal.ofBits .f32 0x00000000#32
def width : EReal := Ideal.ofBits .f32 0x43000000#32
def eps : EReal := Ideal.ofBits .f32 0x3727C5AC#32

/-- Rows of `e` times the matrix `w`, plus the bias row `b`. -/
def linear {M K N : Nat} (e : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ q : Fin K, e (ix2 (i 0) q) * w (ix2 q (i 1))) + b (ix1 (i 1))

/-- An entry clamped at zero from below. -/
def relu (x : EReal) : EReal := max x zero

/-- The mean of row `r` after the clamp. -/
def rowMean {M N : Nat} (h : (⟨2, ![M, N]⟩ : Shape).Idx → EReal) (r : Fin M) : EReal :=
  Ideal.div (∑ q : Fin N, relu (h (ix2 r q))) width

/-- The deviation of entry (r, q) from its row's mean. -/
def dev {M N : Nat} (h : (⟨2, ![M, N]⟩ : Shape).Idx → EReal) (r : Fin M) (q : Fin N) : EReal :=
  relu (h (ix2 r q)) - rowMean h r

/-- The variance of row `r`: the mean of the squared deviations. -/
def rowVar {M N : Nat} (h : (⟨2, ![M, N]⟩ : Shape).Idx → EReal) (r : Fin M) : EReal :=
  Ideal.div (∑ q : Fin N, dev h r q * dev h r q) width

/-- Clamp, normalize each row, scale by `g` and shift by `b`. -/
def layerNorm {M N : Nat} (h : (⟨2, ![M, N]⟩ : Shape).Idx → EReal) (g b : (⟨1, ![N]⟩ : Shape).Idx → EReal) :
    (⟨2, ![M, N]⟩ : Shape).Idx → EReal :=
  fun i => dev h (i 0) (i 1) * Ideal.rsqrt (rowVar h (i 0) + eps) * g (ix1 (i 1)) + b (ix1 (i 1))

/-! ## Row locality -/

/-- If row `p` of the block `eb` is row `ρ p` of `e`, row `p` of the affine layer of the block is row `ρ p` of the
    affine layer of `e`. -/
theorem linear_rows {m M K N : Nat} (ρ : Fin m → Fin M) (eb : (⟨2, ![m, K]⟩ : Shape).Idx → EReal)
    (e : (⟨2, ![M, K]⟩ : Shape).Idx → EReal) (w : (⟨2, ![K, N]⟩ : Shape).Idx → EReal) (b : (⟨1, ![N]⟩ : Shape).Idx → EReal)
    (hrow : ∀ p q, eb (ix2 p q) = e (ix2 (ρ p) q)) (p : Fin m) (c : Fin N) :
    linear eb w b (ix2 p c) = linear e w b (ix2 (ρ p) c) := by
  show (∑ q : Fin K, eb (ix2 p q) * w (ix2 q c)) + b (ix1 c) = (∑ q : Fin K, e (ix2 (ρ p) q) * w (ix2 q c)) + b (ix1 c)
  simp only [hrow]

theorem rowMean_rows {m M N : Nat} (ρ : Fin m → Fin M) (hb : (⟨2, ![m, N]⟩ : Shape).Idx → EReal)
    (h : (⟨2, ![M, N]⟩ : Shape).Idx → EReal) (hrow : ∀ p q, hb (ix2 p q) = h (ix2 (ρ p) q)) (p : Fin m) :
    rowMean hb p = rowMean h (ρ p) := by
  unfold rowMean; simp only [hrow]

theorem dev_rows {m M N : Nat} (ρ : Fin m → Fin M) (hb : (⟨2, ![m, N]⟩ : Shape).Idx → EReal)
    (h : (⟨2, ![M, N]⟩ : Shape).Idx → EReal) (hrow : ∀ p q, hb (ix2 p q) = h (ix2 (ρ p) q)) (p : Fin m) (q : Fin N) :
    dev hb p q = dev h (ρ p) q := by
  unfold dev; rw [rowMean_rows ρ hb h hrow, hrow]

theorem rowVar_rows {m M N : Nat} (ρ : Fin m → Fin M) (hb : (⟨2, ![m, N]⟩ : Shape).Idx → EReal)
    (h : (⟨2, ![M, N]⟩ : Shape).Idx → EReal) (hrow : ∀ p q, hb (ix2 p q) = h (ix2 (ρ p) q)) (p : Fin m) :
    rowVar hb p = rowVar h (ρ p) := by
  unfold rowVar; simp only [dev_rows ρ hb h hrow]

/-- If row `p` of the block `hb` is row `ρ p` of `h`, row `p` of the normalized block is row `ρ p` of the normalized
    `h`. -/
theorem layerNorm_rows {m M N : Nat} (ρ : Fin m → Fin M) (hb : (⟨2, ![m, N]⟩ : Shape).Idx → EReal)
    (h : (⟨2, ![M, N]⟩ : Shape).Idx → EReal) (g b : (⟨1, ![N]⟩ : Shape).Idx → EReal)
    (hrow : ∀ p q, hb (ix2 p q) = h (ix2 (ρ p) q)) (p : Fin m) (c : Fin N) :
    layerNorm hb g b (ix2 p c) = layerNorm h g b (ix2 (ρ p) c) := by
  show dev hb p c * Ideal.rsqrt (rowVar hb p + eps) * g (ix1 c) + b (ix1 c)
    = dev h (ρ p) c * Ideal.rsqrt (rowVar h (ρ p) + eps) * g (ix1 c) + b (ix1 c)
  rw [dev_rows ρ hb h hrow, rowVar_rows ρ hb h hrow]

end Cert.Spec

end
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.LinearBlock.lean ====
/-
  What one grid point of the affine-layer kernel stores, as a function of the three blocks it loads: the block of
  rows times the weight matrix (the low-precision casts are the identity on extended reals, and the block product into
  a zero accumulator is the plain sum over the contracted axis), plus the bias laid out as one row and repeated down
  the rows. Index by index that is `Spec.linear` at the block's number of rows.
-/
import proofs.«120517_j39462159515868_1_alg».proof.Proof.Gen.KernelIdeal.Skeleton
import proofs.«120517_j39462159515868_1_alg».proof.Proof.Spec
import proofs.«120517_j39462159515868_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.LinearBlock

open Cert.KernelIdeal Cert.KernelIdeal.Gen Idealize.ShloMosaic Idealize.ShloMosaic.ValueIdx

/-- The stored block is the affine layer of the loaded blocks. -/
theorem pay_eq (x0 : FVec Ideal S4000x128 .f32) (x1 : FVec Ideal S128x128 .f32) (x2 : FVec Ideal S128 .f32) :
    k0_pay1 (F := Ideal) x0 x1 x2 = Cert.Spec.linear x0 x1 x2 := by
  funext j
  obtain ⟨p, c, rfl⟩ : ∃ (p : Fin 4000) (c : Fin 128), j = ix2 p c := ⟨j 0, j 1, eq_ix2 j⟩
  unfold k0_pay1
  show FloatOps.matmul dot_S4000x128_S128x128_S4000x128_1_0_0_1_n_n none (truncf .bf16 x0 bitsLt_bf16_f32)
        (truncf .bf16 x1 bitsLt_bf16_f32) (constant S4000x128 .f32 0x00000000#32) (ix2 p c)
      + broadcastTo S4000x128 (shapeCast S1x128 x2 shapeCasts_S128_S1x128) broadcasts_S1x128_S4000x128 (ix2 p c)
      = (∑ q : Fin 128, x0 (ix2 p q) * x1 (ix2 q c)) + x2 (ix1 c)
  refine congrArg₂ (· + ·) ?_ ?_
  · refine (Ideal.matmul_constant_zero_apply dot_S4000x128_S128x128_S4000x128_1_0_0_1_n_n none
      (truncf .bf16 x0 bitsLt_bf16_f32) (truncf .bf16 x1 bitsLt_bf16_f32) (ix2 p c)).trans ?_
    exact Cert.LibPlainDot.plain_sum dot_S4000x128_S128x128_S4000x128_1_0_0_1_n_n rfl rfl rfl rfl rfl rfl
      (truncf .bf16 x0 bitsLt_bf16_f32) (truncf .bf16 x1 bitsLt_bf16_f32) p c
  · refine (broadcastTo_1b_ab_apply _ _ p c).trans ?_
    exact shapeCast_a_1a_apply x2 _ (0 : Fin 1) c

end Cert.KernelIdeal.LinearBlock

end
-- ==== Proof.LinearArray.lean ====
/-
  The affine-layer region's output array after all of its grid points, as one function of the arrays the region
  finds at its entry: `Spec.linear` of the embedding table, the weight matrix and the bias.

  Point `t` of the grid of 25 loads rows 4000·t … 4000·t + 3999 of the embedding table together with the whole weight
  matrix and the whole bias, and writes back the same rows of the output. The stored block is the affine layer of the
  loaded blocks, and the affine layer reads, for an entry of row r, only row r of the table; so the block written at
  `t` is the block at `t` of the affine layer of the whole table. The 25 blocks tile the 100000 rows (row r lies in the
  block of point r / 4000), so every entry of the output is written.
-/
import proofs.«120517_j39462159515868_1_alg».proof.Proof.Gen.KernelIdeal.Frame
import proofs.«120517_j39462159515868_1_alg».proof.Proof.LinearBlock
import Idealize.ShloMosaic.Lib.Pipeline.Value

set_option maxRecDepth 16384

noncomputable section

open scoped BigOperators

namespace Cert.KernelIdeal.LinearArray

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The three arrays the region reads, and the three blocks point `t` loads, at their literal types. -/
abbrev table (c : Dev nD) : FVec Ideal S100000x128 .f32 := V c main_arg1
abbrev weight (c : Dev nD) : FVec Ideal S128x128 .f32 := V c main_arg2
abbrev bias (c : Dev nD) : FVec Ideal S128 .f32 := V c main_arg3
abbrev tableBlk (c : Dev nD) (t : Fin cfg0.N) : FVec Ideal S4000x128 .f32 := iblk0 V c 0 t
abbrev weightBlk (c : Dev nD) (t : Fin cfg0.N) : FVec Ideal S128x128 .f32 := iblk0 V c 1 t
abbrev biasBlk (c : Dev nD) (t : Fin cfg0.N) : FVec Ideal S128 .f32 := iblk0 V c 2 t

/-- The printed index maps over the grid: the table's and the output's block index is (t, 0), the weight's (0, 0),
    the bias's 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of point `t`'s block is row `4000 · t + p` of the array. -/
def rowOf (t : Fin cfg0.N) (p : Fin 4000) : Fin 100000 :=
  ⟨t.val * 4000 + p.val, by have h := Nat.lt_of_lt_of_eq t.isLt N_0; have := p.isLt; omega⟩

theorem tableBlk_apply (c : Dev nD) (t : Fin cfg0.N) (p : Fin 4000) (q : Fin 128) :
    tableBlk V c t (ix2 p q) = table V c (ix2 (rowOf t p) q) := by
  obtain ⟨e0, e1, -⟩ := idx_facts t
  show V c main_arg1 (((cfg0.win 0).blk t).view.emb (ix2 p q)) = V c main_arg1 (ix2 (rowOf t p) q)
  refine congrArg (V c main_arg1) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * q.val = q.val; omega

theorem weightBlk_eq (c : Dev nD) (t : Fin cfg0.N) : weightBlk V c t = weight V c := by
  obtain ⟨-, -, e2, e3, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem biasBlk_eq (c : Dev nD) (t : Fin cfg0.N) : biasBlk V c t = bias V c := by
  obtain ⟨-, -, -, -, e4, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 1) * 128 + 1 * (y 0).val = (y 0).val; omega

/-- The affine layer of point `t`'s blocks, at an entry of the block, is the affine layer of the whole arrays at the
    entry of the array the block's entry is. -/
theorem block_eq (c : Dev nD) (t : Fin cfg0.N) (y : S4000x128.Idx) :
    Cert.Spec.linear (tableBlk V c t) (weightBlk V c t) (biasBlk V c t) y
      = Cert.Spec.linear (table V c) (weight V c) (bias V c) (((cfg0.win 3).blk t).view.emb y) := by
  obtain ⟨p, q, rfl⟩ : ∃ (p : Fin 4000) (q : Fin 128), y = ix2 p q := ⟨y 0, y 1, eq_ix2 y⟩
  obtain ⟨-, -, -, -, -, e5, e6⟩ := idx_facts t
  have e : ((cfg0.win 3).blk t).view.emb (ix2 p q) = (ix2 (rowOf t p) q : S100000x128.Idx) := by
    refine funext fun a => Fin.ext ?_
    match a with
    | ⟨0, _⟩ => show win0_3.index t (0 : Fin 2) * 4000 + 1 * p.val = t.val * 4000 + p.val; omega
    | ⟨1, _⟩ => show win0_3.index t (1 : Fin 2) * 128 + 1 * q.val = q.val; omega
  rw [e, weightBlk_eq, biasBlk_eq]
  exact Cert.Spec.linear_rows (rowOf t) (tableBlk V c t) (table V c) (weight V c) (bias V c) (tableBlk_apply V c t) p q

/-- WHAT POINT `t` WRITES BACK is block `t` of the affine layer of the arrays as the region finds them. -/
theorem flushed_eq (c : Dev nD) (t : Fin cfg0.N) :
    (dat0 V c).flushed 3 t
      = ((cfg0.win 3).blk t).view.read (Elt Ideal) (Cert.Spec.linear (table V c) (weight V c) (bias V c)) := by
  show (cfg0.win 3).cut (grid0.coords t) ((dat0 V c).after 3 t) = _
  rw [after0_3]
  unfold out0_3
  rw [View.canon_unit_zero hz2]
  simp only [View.ld_unit_zero (S := S4000x128) hz2, View.ld_unit_zero (S := S128x128) hz2, View.ld_unit_zero (S := S128) hz1]
  funext j
  show k0_pay1 (F := Ideal) (tableBlk V c t) (weightBlk V c t) (biasBlk V c t) j
    = Cert.Spec.linear (table V c) (weight V c) (bias V c) (((cfg0.win 3).blk t).view.emb j)
  rw [Cert.KernelIdeal.LinearBlock.pay_eq]
  exact block_eq V c t j

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v0).slice (win0_3.rect t)).set ↔ _
  rw [View.set_slice_whole, Rect.mem_set_unit]
  exact Iff.rfl

/-- Every entry of the output lies in the block of the point that its row, divided by 4000, names. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 4000, by rw [show cfg0.N = 25 from N_0]; omega⟩
  obtain ⟨-, -, -, -, -, e5, e6⟩ := idx_facts t
  have ht : t.val = (i 0).val / 4000 := rfl
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- THE OUTPUT ARRAY after the region: the affine layer of the arrays the region found. -/
theorem final (c : Dev nD) :
    (dat0 V c).arrAt 3 cfg0.N = Cert.Spec.linear (table V c) (weight V c) (bias V c) :=
  (dat0 V c).arrAt_eq_of_cover 3 (Cert.Spec.linear (table V c) (weight V c) (bias V c)) (fun t _ => flushed_eq V c t) cover

end Cert.KernelIdeal.LinearArray

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.LibRowSum.lean ====
/-
  A reduction of a matrix along its second axis, read at a row.

  A `vector.multi_reduction <add>` of an `[a, b]` array over axis 1 into an `[a]` array holds, at `r`, the sum of row
  `r`: the index the reduction inserts at position `k` of the reduced axis under the kept index `r` is `(r, k)`. Stated
  with the coordinate constructors `ix1` / `ix2`, at any extents, over the extended reals.
-/
import Idealize.ShloMosaic.PureOps.Ideal.Laws
import Idealize.ShloMosaic.Lib.ValueIdx

noncomputable section

open scoped BigOperators

namespace Cert.Lib.RowSum

open Idealize.ShloMosaic Idealize.ShloMosaic.ValueIdx

/-- The sum over the second axis, at row `r`, is `∑ k, src (r, k)`. -/
theorem multiReduction_add_row_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  refine Finset.sum_congr rfl fun k _ => congrArg src (funext fun d => Fin.ext ?_)
  match d with
  | ⟨0, _⟩ => rfl
  | ⟨1, _⟩ => rfl

end Cert.Lib.RowSum

end
-- ==== Proof.LayerNormBlock.lean ====
/-
  What one grid point of the normalization kernel stores, as a function of the three blocks it loads. The body
  clamps the block at zero, sums each row and divides by the width (the row sum is laid out as a column, divided, and
  repeated along the row), subtracts, squares, takes the row mean again, adds ε, takes the reciprocal square root
  (again a column repeated along the row), multiplies, then scales and shifts by the two parameter rows, each laid
  out as one row and repeated down the rows. Index by index that is `Spec.layerNorm` at the block's number of rows.
-/
import proofs.«120517_j39462159515868_1_alg».proof.Proof.Gen.KernelIdeal.Skeleton
import proofs.«120517_j39462159515868_1_alg».proof.Proof.Spec
import proofs.«120517_j39462159515868_1_alg».proof.Proof.LibKeepdims
import proofs.«120517_j39462159515868_1_alg».proof.Proof.LibRowSum
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.LayerNormBlock

open Cert.KernelIdeal Cert.KernelIdeal.Gen Idealize.ShloMosaic Idealize.ShloMosaic.ValueIdx
open Cert.Lib.Keepdims Cert.Lib.RowSum

variable (x0 : FVec Ideal S4000x128 .f32)

/-- The block clamped at zero. -/
def clamped : FVec Ideal S4000x128 .f32 :=
  maximumf (shapeCast S4000x128 x0 shapeCasts_S4000x128_S4000x128) (broadcast S4000x128 (Scalar.ofBits (F := Ideal) .f32 0x00000000#32))

/-- The row means, repeated along each row. -/
def means : FVec Ideal S4000x128 .f32 :=
  broadcastTo S4000x128
    (divf (shapeCast S4000x1 (multiReduction .add [1] S4000 (clamped x0) 0x00000000#32 reduces_S4000x128_S4000 (.inl rfl) rfl) shapeCasts_S4000_S4000x1)
      (broadcast S4000x1 (Scalar.ofBits (F := Ideal) .f32 0x43000000#32)))
    broadcasts_S4000x1_S4000x128

/-- The deviations from the row means. -/
def devs : FVec Ideal S4000x128 .f32 := subf (clamped x0) (means x0)

/-- The reciprocal root of each row's variance plus ε, repeated along the row. -/
def scales : FVec Ideal S4000x128 .f32 :=
  broadcastTo S4000x128
    (rsqrt (addf
      (divf (shapeCast S4000x1 (multiReduction .add [1] S4000 (mulf (devs x0) (devs x0)) 0x00000000#32 reduces_S4000x128_S4000 (.inl rfl) rfl) shapeCasts_S4000_S4000x1)
        (broadcast S4000x1 (Scalar.ofBits (F := Ideal) .f32 0x43000000#32)))
      (broadcast S4000x1 (Scalar.ofBits (F := Ideal) .f32 0x3727C5AC#32))))
    broadcasts_S4000x1_S4000x128

/-- The stored value is those pieces put together. -/
theorem pay_unfold (g b : FVec Ideal S128 .f32) :
    k1_pay1 (F := Ideal) x0 g b
      = addf (mulf (mulf (devs x0) (scales x0)) (broadcastTo S4000x128 (shapeCast S1x128 g shapeCasts_S128_S1x128) broadcasts_S1x128_S4000x128))
          (broadcastTo S4000x128 (shapeCast S1x128 b shapeCasts_S128_S1x128) broadcasts_S1x128_S4000x128) := rfl

theorem clamped_apply (p : Fin 4000) (q : Fin 128) : clamped x0 (ix2 p q) = Cert.Spec.relu (x0 (ix2 p q)) := by
  unfold clamped
  rw [shapeCast_self]
  rfl

theorem means_apply (p : Fin 4000) (q : Fin 128) : means x0 (ix2 p q) = Cert.Spec.rowMean x0 p := by
  unfold means
  refine (broadcastTo_a1_ab_apply _ _ p q).trans ?_
  show Ideal.div (shapeCast S4000x1 _ shapeCasts_S4000_S4000x1 (ix2 p (0 : Fin 1))) (Ideal.ofBits .f32 0x43000000#32) = _
  unfold Cert.Spec.rowMean Cert.Spec.width
  refine congrArg (Ideal.div · _) ?_
  refine (shapeCast_a_a1_apply _ _ p (0 : Fin 1)).trans ?_
  refine (multiReduction_add_row_apply _ _ _ _ _ p).trans ?_
  exact Finset.sum_congr rfl fun k _ => clamped_apply x0 p k

theorem devs_apply (p : Fin 4000) (q : Fin 128) : devs x0 (ix2 p q) = Cert.Spec.dev x0 p q := by
  show clamped x0 (ix2 p q) - means x0 (ix2 p q) = _
  rw [clamped_apply, means_apply]
  rfl

theorem scales_apply (p : Fin 4000) (q : Fin 128) :
    scales x0 (ix2 p q) = Ideal.rsqrt (Cert.Spec.rowVar x0 p + Cert.Spec.eps) := by
  unfold scales
  refine (broadcastTo_a1_ab_apply _ _ p q).trans ?_
  show Ideal.rsqrt (Ideal.div (shapeCast S4000x1 _ shapeCasts_S4000_S4000x1 (ix2 p (0 : Fin 1))) (Ideal.ofBits .f32 0x43000000#32)
      + Ideal.ofBits .f32 0x3727C5AC#32) = _
  unfold Cert.Spec.rowVar Cert.Spec.width Cert.Spec.eps
  refine congrArg (fun s => Ideal.rsqrt (Ideal.div s _ + _)) ?_
  refine (shapeCast_a_a1_apply _ _ p (0 : Fin 1)).trans ?_
  refine (multiReduction_add_row_apply _ _ _ _ _ p).trans ?_
  refine Finset.sum_congr rfl fun k _ => ?_
  show devs x0 (ix2 p k) * devs x0 (ix2 p k) = _
  rw [devs_apply]

/-- The stored block is the normalization of the loaded block by the two loaded parameter rows. -/
theorem pay_eq (g b : FVec Ideal S128 .f32) : k1_pay1 (F := Ideal) x0 g b = Cert.Spec.layerNorm x0 g b := by
  rw [pay_unfold]
  funext j
  obtain ⟨p, c, rfl⟩ : ∃ (p : Fin 4000) (c : Fin 128), j = ix2 p c := ⟨j 0, j 1, eq_ix2 j⟩
  show devs x0 (ix2 p c) * scales x0 (ix2 p c)
        * broadcastTo S4000x128 (shapeCast S1x128 g shapeCasts_S128_S1x128) broadcasts_S1x128_S4000x128 (ix2 p c)
      + broadcastTo S4000x128 (shapeCast S1x128 b shapeCasts_S128_S1x128) broadcasts_S1x128_S4000x128 (ix2 p c)
      = Cert.Spec.dev x0 p c * Ideal.rsqrt (Cert.Spec.rowVar x0 p + Cert.Spec.eps) * g (ix1 c) + b (ix1 c)
  rw [devs_apply, scales_apply]
  have hg : broadcastTo S4000x128 (shapeCast S1x128 g shapeCasts_S128_S1x128) broadcasts_S1x128_S4000x128 (ix2 p c) = g (ix1 c) :=
    (broadcastTo_1b_ab_apply _ _ p c).trans (shapeCast_a_1a_apply g _ (0 : Fin 1) c)
  have hb : broadcastTo S4000x128 (shapeCast S1x128 b shapeCasts_S128_S1x128) broadcasts_S1x128_S4000x128 (ix2 p c) = b (ix1 c) :=
    (broadcastTo_1b_ab_apply _ _ p c).trans (shapeCast_a_1a_apply b _ (0 : Fin 1) c)
  rw [hg, hb]

end Cert.KernelIdeal.LayerNormBlock

end
-- ==== Proof.LayerNormArray.lean ====
/-
  The normalization region's output array after all of its grid points, as one function of the arrays the region
  finds at its entry: `Spec.layerNorm` of the aggregated features and the two parameter rows.

  Point `t` of the grid of 25 loads rows 4000·t … 4000·t + 3999 of the aggregated features together with the whole
  scale and shift rows, and writes back the same rows of the output. The stored block is the normalization of the
  loaded block, and the normalization of an entry of row r reads only row r (its mean and variance are the row's own);
  so the block written at `t` is the block at `t` of the normalization of the whole array. The 25 blocks tile the
  100000 rows (row r lies in the block of point r / 4000), so every entry of the output is written.
-/
import proofs.«120517_j39462159515868_1_alg».proof.Proof.Gen.KernelIdeal.Frame
import proofs.«120517_j39462159515868_1_alg».proof.Proof.LayerNormBlock
import Idealize.ShloMosaic.Lib.Pipeline.Value

set_option maxRecDepth 16384

noncomputable section

open scoped BigOperators

namespace Cert.KernelIdeal.LayerNormArray

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The three arrays the region reads, and the three blocks point `t` loads, at their literal types. -/
abbrev feats (c : Dev nD) : FVec Ideal S100000x128 .f32 := V c main_v13
abbrev gain (c : Dev nD) : FVec Ideal S128 .f32 := V c main_arg7
abbrev shift (c : Dev nD) : FVec Ideal S128 .f32 := V c main_arg8
abbrev featsBlk (c : Dev nD) (t : Fin cfg1.N) : FVec Ideal S4000x128 .f32 := iblk1 V c 0 t
abbrev gainBlk (c : Dev nD) (t : Fin cfg1.N) : FVec Ideal S128 .f32 := iblk1 V c 1 t
abbrev shiftBlk (c : Dev nD) (t : Fin cfg1.N) : FVec Ideal S128 .f32 := iblk1 V c 2 t

/-- The printed index maps over the grid: the features' and the output's block index is (t, 0), each parameter
    row's 0. -/
theorem idx_facts : ∀ t : Fin cfg1.N, win1_0.index t (0 : Fin 2) = t.val ∧ win1_0.index t (1 : Fin 2) = 0
    ∧ win1_1.index t (0 : Fin 1) = 0
    ∧ win1_2.index t (0 : Fin 1) = 0
    ∧ win1_3.index t (0 : Fin 2) = t.val ∧ win1_3.index t (1 : Fin 2) = 0 :=
  (by decide +kernel : ∀ t : Fin grid1.N, _)

/-- Row `p` of point `t`'s block is row `4000 · t + p` of the array. -/
def rowOf (t : Fin cfg1.N) (p : Fin 4000) : Fin 100000 :=
  ⟨t.val * 4000 + p.val, by have h := Nat.lt_of_lt_of_eq t.isLt N_1; have := p.isLt; omega⟩

theorem featsBlk_apply (c : Dev nD) (t : Fin cfg1.N) (p : Fin 4000) (q : Fin 128) :
    featsBlk V c t (ix2 p q) = feats V c (ix2 (rowOf t p) q) := by
  obtain ⟨e0, e1, -⟩ := idx_facts t
  show V c main_v13 (((cfg1.win 0).blk t).view.emb (ix2 p q)) = V c main_v13 (ix2 (rowOf t p) q)
  refine congrArg (V c main_v13) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * q.val = q.val; omega

theorem gainBlk_eq (c : Dev nD) (t : Fin cfg1.N) : gainBlk V c t = gain V c := by
  obtain ⟨-, -, e2, -⟩ := idx_facts t
  funext y
  show V c main_arg7 (((cfg1.win 1).blk t).view.emb y) = V c main_arg7 y
  refine congrArg (V c main_arg7) (funext fun a => Fin.ext ?_)
  match a with
  | ⟨0, _⟩ => show win1_1.index t (0 : Fin 1) * 128 + 1 * (y 0).val = (y 0).val; omega

theorem shiftBlk_eq (c : Dev nD) (t : Fin cfg1.N) : shiftBlk V c t = shift V c := by
  obtain ⟨-, -, -, e3, -⟩ := idx_facts t
  funext y
  show V c main_arg8 (((cfg1.win 2).blk t).view.emb y) = V c main_arg8 y
  refine congrArg (V c main_arg8) (funext fun a => Fin.ext ?_)
  match a with
  | ⟨0, _⟩ => show win1_2.index t (0 : Fin 1) * 128 + 1 * (y 0).val = (y 0).val; omega

/-- The normalization of point `t`'s block, at an entry of the block, is the normalization of the whole array at the
    entry of the array the block's entry is. -/
theorem block_eq (c : Dev nD) (t : Fin cfg1.N) (y : S4000x128.Idx) :
    Cert.Spec.layerNorm (featsBlk V c t) (gainBlk V c t) (shiftBlk V c t) y
      = Cert.Spec.layerNorm (feats V c) (gain V c) (shift V c) (((cfg1.win 3).blk t).view.emb y) := by
  obtain ⟨p, q, rfl⟩ : ∃ (p : Fin 4000) (q : Fin 128), y = ix2 p q := ⟨y 0, y 1, eq_ix2 y⟩
  obtain ⟨-, -, -, -, e4, e5⟩ := idx_facts t
  have e : ((cfg1.win 3).blk t).view.emb (ix2 p q) = (ix2 (rowOf t p) q : S100000x128.Idx) := by
    refine funext fun a => Fin.ext ?_
    match a with
    | ⟨0, _⟩ => show win1_3.index t (0 : Fin 2) * 4000 + 1 * p.val = t.val * 4000 + p.val; omega
    | ⟨1, _⟩ => show win1_3.index t (1 : Fin 2) * 128 + 1 * q.val = q.val; omega
  rw [e, gainBlk_eq, shiftBlk_eq]
  exact Cert.Spec.layerNorm_rows (rowOf t) (featsBlk V c t) (feats V c) (gain V c) (shift V c) (featsBlk_apply V c t) p q

/-- WHAT POINT `t` WRITES BACK is block `t` of the normalization of the arrays as the region finds them. -/
theorem flushed_eq (c : Dev nD) (t : Fin cfg1.N) :
    (dat1 V c).flushed 3 t
      = ((cfg1.win 3).blk t).view.read (Elt Ideal) (Cert.Spec.layerNorm (feats V c) (gain V c) (shift V c)) := by
  show (cfg1.win 3).cut (grid1.coords t) ((dat1 V c).after 3 t) = _
  rw [after1_3]
  unfold out1_3
  rw [View.canon_unit_zero hz2]
  simp only [View.ld_unit_zero (S := S4000x128) hz2, View.ld_unit_zero (S := S128) hz1]
  funext j
  show k1_pay1 (F := Ideal) (featsBlk V c t) (gainBlk V c t) (shiftBlk V c t) j
    = Cert.Spec.layerNorm (feats V c) (gain V c) (shift V c) (((cfg1.win 3).blk t).view.emb j)
  rw [Cert.KernelIdeal.LayerNormBlock.pay_eq]
  exact block_eq V c t j

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v14).slice (win1_3.rect t)).set ↔ _
  rw [View.set_slice_whole, Rect.mem_set_unit]
  exact Iff.rfl

/-- Every entry of the output lies in the block of the point that its row, divided by 4000, names. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 4000, by rw [show cfg1.N = 25 from N_1]; omega⟩
  obtain ⟨-, -, -, -, e4, e5⟩ := idx_facts t
  have ht : t.val = (i 0).val / 4000 := rfl
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- THE OUTPUT ARRAY after the region: the normalization of the arrays the region found. -/
theorem final (c : Dev nD) :
    (dat1 V c).arrAt 3 cfg1.N = Cert.Spec.layerNorm (feats V c) (gain V c) (shift V c) :=
  (dat1 V c).arrAt_eq_of_cover 3 (Cert.Spec.layerNorm (feats V c) (gain V c) (shift V c)) (fun t _ => flushed_eq V c t) cover

end Cert.KernelIdeal.LayerNormArray

end
-- ==== Proof.ReferenceSpec.lean ====
/-
  The reference's two dense stages are the same whole-array functions as the kernel's.

  The reference computes the affine layer as one host matrix product of the whole embedding table with the weight
  matrix plus the bias broadcast over the rows: at entry (r, c) the product is the sum over the contracted axis, so the
  stage is `Spec.linear`. After the gather, scale and scatter-add (whatever array `h` those leave), it clamps at zero,
  sums each row from a zero initial value, divides by the width, subtracts the mean repeated along the row, squares,
  sums and divides again, adds ε, takes the reciprocal square root, and scales and shifts by the two parameter rows: at
  entry (r, c) that is `Spec.layerNorm h`. The host's quotient and reciprocal square root are the extended reals' own,
  as the kernel's are, and a sum from the zero word is the plain sum.
-/
import proofs.«120517_j39462159515868_1_alg».proof.Proof.Gen.ReferenceIdeal.Read
import proofs.«120517_j39462159515868_1_alg».proof.Proof.Spec
import proofs.«120517_j39462159515868_1_alg».proof.Proof.LibPlainDot

noncomputable section

open scoped BigOperators

namespace Cert.ReferenceIdeal.RefValue

open Cert.ReferenceIdeal Cert.ReferenceIdeal.Gen Cert.ReferenceIdeal.Read Idealize.ShloMosaic Idealize.ShloMosaic.ValueIdx

variable (x1 : (⟨S100000x128, .f32⟩ : BufTy).Contents (Elt Ideal)) (x2 : (⟨S128x128, .f32⟩ : BufTy).Contents (Elt Ideal)) (x3 : (⟨S128, .f32⟩ : BufTy).Contents (Elt Ideal))
  (x4 : (⟨S1600000, .f32⟩ : BufTy).Contents (Elt Ideal)) (x5 x6 : (⟨S1600000, .i32⟩ : BufTy).Contents (Elt Ideal)) (x7 x8 : (⟨S128, .f32⟩ : BufTy).Contents (Elt Ideal))

/-! ## The affine stage -/

/-- The host's product plus the broadcast bias is the affine layer. -/
theorem linear_eq : val_main_v3 (F := Ideal) x1 x2 x3 = Cert.Spec.linear (M := 100000) (K := 128) (N := 128) x1 x2 x3 := by
  funext i
  obtain ⟨r, c, rfl⟩ : ∃ (r : Fin 100000) (c : Fin 128), i = ix2 r c := ⟨i 0, i 1, eq_ix2 i⟩
  show val_main_v0 (F := Ideal) x1 x2 (ix2 r c) + val_main_v2 (F := Ideal) x3 (ix2 r c)
    = (∑ q : Fin 128, x1 (ix2 r q) * x2 (ix2 q c)) + x3 (ix1 c)
  refine congrArg₂ (· + ·) ?_ ?_
  · exact Cert.LibPlainDot.hostDot_apply dot_S100000x128_S128x128_S100000x128_1_0_0_1_n_n rfl rfl rfl rfl rfl rfl none x1 x2 r c
  · rw [val_main_v2_apply, val_main_v1_apply]
    exact congrArg x3 (funext fun a => Fin.ext (by match a with | ⟨0, _⟩ => rfl))

/-! ## The clamp and the normalization, over the array the scatter-add leaves -/

/-- The clamped entry. -/
theorem relu_apply (i : S100000x128.Idx) :
    val_main_v17 (F := Ideal) x1 x2 x3 x4 x5 x6 i = Cert.Spec.relu ((val_main_v16 (F := Ideal) x1 x2 x3 x4 x5 x6) i) := by
  rw [val_main_v17_apply, val_main_call0_v0_apply, val_main_call0_cst_apply]
  rfl

/-- The row sum from the zero word is the plain sum of the clamped row. -/
theorem rowsum_apply (r : Fin 100000) :
    val_main_v18 (F := Ideal) x1 x2 x3 x4 x5 x6 (ix1 r) = ∑ k : Fin 128, Cert.Spec.relu ((val_main_v16 (F := Ideal) x1 x2 x3 x4 x5 x6) (ix2 r k)) := by
  rw [val_main_v18_apply, val_main_cst_1_apply]
  show Ideal.ofBits .f32 0x00000000#32 + _ = _
  rw [Ideal.ofBits_zero_f32, zero_add]
  refine Finset.sum_congr rfl fun k _ => ?_
  rw [relu_apply]
  exact congrArg (fun j => Cert.Spec.relu ((val_main_v16 (F := Ideal) x1 x2 x3 x4 x5 x6) j))
    (funext fun a => Fin.ext (by match a with | ⟨0, _⟩ => rfl | ⟨1, _⟩ => rfl))

/-- The row mean, kept as a column. -/
theorem mean_apply (r : Fin 100000) (u : Fin 1) :
    val_main_v21 (F := Ideal) x1 x2 x3 x4 x5 x6 (ix2 r u) = Cert.Spec.rowMean (M := 100000) (N := 128) (val_main_v16 (F := Ideal) x1 x2 x3 x4 x5 x6) r := by
  rw [val_main_v21_apply, val_main_v19_apply, val_main_v20_apply, val_main_cst_2_apply]
  have e : idx_main_v19 (ix2 r u) = ix1 r := funext fun a => Fin.ext (by match a with | ⟨0, _⟩ => rfl)
  rw [e, rowsum_apply]
  rfl

/-- The deviation from the row mean (the reference computes it twice: once to square, once to scale). -/
theorem dev_apply (r : Fin 100000) (c : Fin 128) :
    val_main_v23 (F := Ideal) x1 x2 x3 x4 x5 x6 (ix2 r c) = Cert.Spec.dev (M := 100000) (N := 128) (val_main_v16 (F := Ideal) x1 x2 x3 x4 x5 x6) r c := by
  rw [val_main_v23_apply, relu_apply, val_main_v22_apply]
  have e : idx_main_v22 (ix2 r c) = ix2 r (0 : Fin 1) :=
    funext fun a => Fin.ext (by match a with | ⟨0, _⟩ => rfl | ⟨1, _⟩ => rfl)
  rw [e, mean_apply]
  rfl

theorem dev_apply' (r : Fin 100000) (c : Fin 128) :
    val_main_v30 (F := Ideal) x1 x2 x3 x4 x5 x6 (ix2 r c) = Cert.Spec.dev (M := 100000) (N := 128) (val_main_v16 (F := Ideal) x1 x2 x3 x4 x5 x6) r c := by
  rw [val_main_v30_apply, relu_apply, val_main_v29_apply]
  have e : idx_main_v29 (ix2 r c) = ix2 r (0 : Fin 1) :=
    funext fun a => Fin.ext (by match a with | ⟨0, _⟩ => rfl | ⟨1, _⟩ => rfl)
  rw [e, mean_apply]
  rfl

/-- The row variance, kept as a column. -/
theorem var_apply (r : Fin 100000) (u : Fin 1) :
    val_main_v28 (F := Ideal) x1 x2 x3 x4 x5 x6 (ix2 r u) = Cert.Spec.rowVar (M := 100000) (N := 128) (val_main_v16 (F := Ideal) x1 x2 x3 x4 x5 x6) r := by
  rw [val_main_v28_apply, val_main_v26_apply, val_main_v27_apply, val_main_cst_4_apply]
  have e : idx_main_v26 (ix2 r u) = ix1 r := funext fun a => Fin.ext (by match a with | ⟨0, _⟩ => rfl)
  rw [e, val_main_v25_apply, val_main_cst_3_apply]
  show Ideal.div (Ideal.ofBits .f32 0x00000000#32 + ∑ k : Fin 128, val_main_v24 (F := Ideal) x1 x2 x3 x4 x5 x6 (idx_main_v25 (ix1 r) k))
      (Ideal.ofBits .f32 0x43000000#32) = _
  rw [Ideal.ofBits_zero_f32, zero_add]
  have hs : (∑ k : Fin 128, val_main_v24 (F := Ideal) x1 x2 x3 x4 x5 x6 (idx_main_v25 (ix1 r) k))
      = ∑ k : Fin 128, Cert.Spec.dev (M := 100000) (N := 128) (val_main_v16 (F := Ideal) x1 x2 x3 x4 x5 x6) r k * Cert.Spec.dev (M := 100000) (N := 128) (val_main_v16 (F := Ideal) x1 x2 x3 x4 x5 x6) r k := by
    refine Finset.sum_congr rfl fun k _ => ?_
    have e2 : idx_main_v25 (ix1 r) k = ix2 r k :=
      funext fun a => Fin.ext (by match a with | ⟨0, _⟩ => rfl | ⟨1, _⟩ => rfl)
    rw [e2, val_main_v24_apply, dev_apply]
    rfl
  rw [hs]
  rfl

/-- The reciprocal root of the variance plus ε, kept as a column. -/
theorem scale_apply (r : Fin 100000) (u : Fin 1) :
    val_main_v33 (F := Ideal) x1 x2 x3 x4 x5 x6 (ix2 r u)
      = Ideal.rsqrt (Cert.Spec.rowVar (M := 100000) (N := 128) (val_main_v16 (F := Ideal) x1 x2 x3 x4 x5 x6) r + Cert.Spec.eps) := by
  rw [val_main_v33_apply, val_main_v32_apply, var_apply, val_main_v31_apply, val_main_cst_5_apply]
  rfl

/-- The reference's normalized array is the normalization of what the scatter-add leaves. -/
theorem layerNorm_eq :
    val_main_v41 (F := Ideal) x1 x2 x3 x4 x5 x6 x7 x8 = Cert.Spec.layerNorm (M := 100000) (N := 128) (val_main_v16 (F := Ideal) x1 x2 x3 x4 x5 x6) x7 x8 := by
  funext i
  obtain ⟨r, c, rfl⟩ : ∃ (r : Fin 100000) (c : Fin 128), i = ix2 r c := ⟨i 0, i 1, eq_ix2 i⟩
  rw [val_main_v41_apply, val_main_v38_apply, val_main_v35_apply, dev_apply', val_main_v34_apply, val_main_v37_apply,
    val_main_v36_apply, val_main_v40_apply, val_main_v39_apply]
  have e34 : idx_main_v34 (ix2 r c) = ix2 r (0 : Fin 1) :=
    funext fun a => Fin.ext (by match a with | ⟨0, _⟩ => rfl | ⟨1, _⟩ => rfl)
  have e7 : idx_main_v36 (idx_main_v37 (ix2 r c)) = ix1 c := funext fun a => Fin.ext (by match a with | ⟨0, _⟩ => rfl)
  have e8 : idx_main_v39 (idx_main_v40 (ix2 r c)) = ix1 c := funext fun a => Fin.ext (by match a with | ⟨0, _⟩ => rfl)
  rw [e34, scale_apply, e7, e8]
  rfl

end Cert.ReferenceIdeal.RefValue

end
-- ==== Proof.KernelIdealStages.lean ====
/-
  The kernel program's first three stages, read back through its segments, are the reference's stages of the arguments.

  The program is: the affine-layer region; a host stretch (gather the rows the edges name, scale by the edge values,
  scatter-add into the destination rows); the normalization region; a last host stretch (the masked read-out). The
  contents of every buffer at each boundary are a fold through these segments from the launch memory. Here: the
  affine region's output array is `Spec.linear` of the launch arguments, which is the reference's affine stage; the
  middle stretch's operations are the reference's, applied to that array, so the aggregated features are the
  reference's scatter-add stage; and the normalization region's output array is `Spec.layerNorm` of the aggregated
  features, which is the reference's normalization of the same array. No host operation and no region writes an
  argument, so each argument is read at its launch contents throughout.
-/
import proofs.«120517_j39462159515868_1_alg».proof.Proof.Gen.KernelIdeal.Frame
import proofs.«120517_j39462159515868_1_alg».proof.Proof.Gen.ReferenceIdeal.Read
import proofs.«120517_j39462159515868_1_alg».proof.Proof.KernelIdealNamed
import proofs.«120517_j39462159515868_1_alg».proof.Proof.LinearArray
import proofs.«120517_j39462159515868_1_alg».proof.Proof.LayerNormArray
import proofs.«120517_j39462159515868_1_alg».proof.Proof.ReferenceSpec
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The nine argument arrays at launch, at the literal types the reference's stages take them at. -/
abbrev a0 (c : Dev nD) : (⟨Cert.ReferenceIdeal.S500000, .i32⟩ : BufTy).Contents (Elt Ideal) := m ((c : Thread nD τ).loc main_arg0)
abbrev a1 (c : Dev nD) : (⟨Cert.ReferenceIdeal.S100000x128, .f32⟩ : BufTy).Contents (Elt Ideal) := m ((c : Thread nD τ).loc main_arg1)
abbrev a2 (c : Dev nD) : (⟨Cert.ReferenceIdeal.S128x128, .f32⟩ : BufTy).Contents (Elt Ideal) := m ((c : Thread nD τ).loc main_arg2)
abbrev a3 (c : Dev nD) : (⟨Cert.ReferenceIdeal.S128, .f32⟩ : BufTy).Contents (Elt Ideal) := m ((c : Thread nD τ).loc main_arg3)
abbrev a4 (c : Dev nD) : (⟨Cert.ReferenceIdeal.S1600000, .f32⟩ : BufTy).Contents (Elt Ideal) := m ((c : Thread nD τ).loc main_arg4)
abbrev a5 (c : Dev nD) : (⟨Cert.ReferenceIdeal.S1600000, .i32⟩ : BufTy).Contents (Elt Ideal) := m ((c : Thread nD τ).loc main_arg5)
abbrev a6 (c : Dev nD) : (⟨Cert.ReferenceIdeal.S1600000, .i32⟩ : BufTy).Contents (Elt Ideal) := m ((c : Thread nD τ).loc main_arg6)
abbrev a7 (c : Dev nD) : (⟨Cert.ReferenceIdeal.S128, .f32⟩ : BufTy).Contents (Elt Ideal) := m ((c : Thread nD τ).loc main_arg7)
abbrev a8 (c : Dev nD) : (⟨Cert.ReferenceIdeal.S128, .f32⟩ : BufTy).Contents (Elt Ideal) := m ((c : Thread nD τ).loc main_arg8)

/-! ## The arguments at the inner boundaries -/

/-- An argument after the affine region: as launched. -/
theorem W1_arg (c : Dev nD) (b : Ref sig .tc) (hb : ∀ w, Pipeline.arrRef spec0 w ≠ b) :
    W1 m ρ c (Proc.devRef .tc b) = m ((c : Thread nD τ).loc b) :=
  (W1_of_ne m ρ c b hb).trans rfl

theorem W2_arg0 (c : Dev nD) : W2 m ρ c (Proc.devRef .tc main_arg0) = m ((c : Thread nD τ).loc main_arg0) := by
  show StableHlo.after hostOps1 (W1 m ρ c) (Proc.devRef .tc main_arg0) = _
  after_results
  exact W1_arg m ρ c main_arg0 (by decide)

theorem W2_arg7 (c : Dev nD) : W2 m ρ c (Proc.devRef .tc main_arg7) = m ((c : Thread nD τ).loc main_arg7) := by
  show StableHlo.after hostOps1 (W1 m ρ c) (Proc.devRef .tc main_arg7) = _
  after_results
  exact W1_arg m ρ c main_arg7 (by decide)

theorem W2_arg8 (c : Dev nD) : W2 m ρ c (Proc.devRef .tc main_arg8) = m ((c : Thread nD τ).loc main_arg8) := by
  show StableHlo.after hostOps1 (W1 m ρ c) (Proc.devRef .tc main_arg8) = _
  after_results
  exact W1_arg m ρ c main_arg8 (by decide)

theorem W3_arg0 (c : Dev nD) : W3 m ρ c (Proc.devRef .tc main_arg0) = m ((c : Thread nD τ).loc main_arg0) :=
  (W3_of_ne m ρ c main_arg0 (by decide)).trans (W2_arg0 m ρ c)

/-! ## The four stages, from the launch to the result -/

/-- The affine region's output array is the reference's affine stage of the arguments. -/
theorem affine_eq (c : Dev nD) :
    W1 m ρ c (Proc.devRef .tc main_v0) = Cert.ReferenceIdeal.Read.val_main_v3 (F := Ideal) (a1 m c) (a2 m c) (a3 m c) :=
  (W1_arr m ρ c 3).trans ((Cert.KernelIdeal.LinearArray.final (V0 m ρ) c).trans
    (Cert.ReferenceIdeal.RefValue.linear_eq (a1 m c) (a2 m c) (a3 m c)).symm)

/-- After the middle stretch the aggregated features are the reference's scatter-add stage of the arguments. -/
theorem aggregated_eq (c : Dev nD) :
    W2 m ρ c (Proc.devRef .tc main_v13) = Cert.ReferenceIdeal.Read.val_main_v16 (F := Ideal) (a1 m c) (a2 m c) (a3 m c) (a4 m c) (a5 m c) (a6 m c) := by
  show StableHlo.after hostOps1 (W1 m ρ c) (Proc.devRef .tc main_v13) = _
  after_results
  rw [affine_eq m ρ c, W1_arg m ρ c main_arg4 (by decide), W1_arg m ρ c main_arg5 (by decide), W1_arg m ρ c main_arg6 (by decide)]
  rfl

/-- The normalization region's output array is the reference's normalization stage of the arguments. -/
theorem normalized_eq (c : Dev nD) :
    W3 m ρ c (Proc.devRef .tc main_v14) = Cert.ReferenceIdeal.Read.val_main_v41 (F := Ideal) (a1 m c) (a2 m c) (a3 m c) (a4 m c) (a5 m c) (a6 m c) (a7 m c) (a8 m c) := by
  refine (W3_arr m ρ c 3).trans ((Cert.KernelIdeal.LayerNormArray.final (V2 m ρ) c).trans ?_)
  have h13 : Cert.KernelIdeal.LayerNormArray.feats (V2 m ρ) c = Cert.ReferenceIdeal.Read.val_main_v16 (F := Ideal) (a1 m c) (a2 m c) (a3 m c) (a4 m c) (a5 m c) (a6 m c) :=
    aggregated_eq m ρ c
  have h7 : Cert.KernelIdeal.LayerNormArray.gain (V2 m ρ) c = a7 m c := W2_arg7 m ρ c
  have h8 : Cert.KernelIdeal.LayerNormArray.shift (V2 m ρ) c = a8 m c := W2_arg8 m ρ c
  rw [h13, h7, h8]
  exact (Cert.ReferenceIdeal.RefValue.layerNorm_eq (a1 m c) (a2 m c) (a3 m c) (a4 m c) (a5 m c) (a6 m c) (a7 m c) (a8 m c)).symm

end Cert.KernelIdeal.Whole

end
-- ==== Proof.KernelIdealWhole.lean ====
/-
  The kernel program's result buffer at the last boundary is the reference's composed term of the arguments, and so
  the kernel program's run ends with the result at that term.

  After the normalization region the program runs four short runs of array operations: the mask of the queries in
  range, the query shifted down by one and the clamp's two bounds; the clamp; the mask laid out as a column, the
  clamped index made non-negative, the gather of the normalized rows, and a zero; the select. Each is read back from the
  contents the run before it left, and after each the buffers the next run reads are the reference's own stages of the
  arguments. The normalized rows themselves are the reference's normalization stage (`normalized_eq`).
-/
import proofs.«120517_j39462159515868_1_alg».proof.Proof.KernelIdealStages

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ### The last stretch, one piece at a time

The stretch is four runs of operations: the query mask, the shifted query and the clamp's two bounds; the clamp; the
mask laid out as a column, the clamped index made non-negative, the gather of the normalized rows, and a zero; the
select. After each run the buffers the next run reads are the reference's own stages of the arguments. -/

/-- The mask of the queries in range. -/
theorem W4_mask (c : Dev nD) : W4 m ρ c (Proc.devRef .tc main_v19) = Cert.ReferenceIdeal.Read.val_main_v46 (F := Ideal) (a0 m c) := by
  show StableHlo.after hostOps2 (W3 m ρ c) (Proc.devRef .tc main_v19) = _
  after_results
  rw [W3_arg0 m ρ c]
  rfl

/-- The query shifted down by one. -/
theorem W4_shifted (c : Dev nD) : W4 m ρ c (Proc.devRef .tc main_v21) = Cert.ReferenceIdeal.Read.val_main_v48 (F := Ideal) (a0 m c) := by
  show StableHlo.after hostOps2 (W3 m ρ c) (Proc.devRef .tc main_v21) = _
  after_results
  rw [W3_arg0 m ρ c]
  rfl

/-- The clamp's lower and upper bounds. -/
theorem W4_lo (c : Dev nD) : W4 m ρ c (Proc.devRef .tc main_c_4) = Cert.ReferenceIdeal.Read.val_main_c_9 (F := Ideal) := by
  show StableHlo.after hostOps2 (W3 m ρ c) (Proc.devRef .tc main_c_4) = _
  after_results
  rfl

theorem W4_hi (c : Dev nD) : W4 m ρ c (Proc.devRef .tc main_c_5) = Cert.ReferenceIdeal.Read.val_main_c_10 (F := Ideal) := by
  show StableHlo.after hostOps2 (W3 m ρ c) (Proc.devRef .tc main_c_5) = _
  after_results
  rfl

/-- The normalized rows are not written by this run. -/
theorem W4_norm (c : Dev nD) : W4 m ρ c (Proc.devRef .tc main_v14) = Cert.ReferenceIdeal.Read.val_main_v41 (F := Ideal) (a1 m c) (a2 m c) (a3 m c) (a4 m c) (a5 m c) (a6 m c) (a7 m c) (a8 m c) := by
  show StableHlo.after hostOps2 (W3 m ρ c) (Proc.devRef .tc main_v14) = _
  after_results
  exact normalized_eq m ρ c

/-- The clamped query index. -/
theorem W5_clamped (c : Dev nD) : W5 m ρ c (Proc.devRef .tc main_v22) = Cert.ReferenceIdeal.Read.val_main_v49 (F := Ideal) (a0 m c) := by
  have h1 := W4_shifted m ρ c
  have h2 := W4_lo m ρ c
  have h3 := W4_hi m ρ c
  show StableHlo.after hostOps2_1 (W4 m ρ c) (Proc.devRef .tc main_v22) = _
  generalize W4 m ρ c = Wv at h1 h2 h3 ⊢
  after_results
  rw [h1, h2, h3]
  rfl

/-- The mask and the normalized rows pass through the clamp. -/
theorem W5_mask (c : Dev nD) : W5 m ρ c (Proc.devRef .tc main_v19) = Cert.ReferenceIdeal.Read.val_main_v46 (F := Ideal) (a0 m c) := by
  have h := W4_mask m ρ c
  show StableHlo.after hostOps2_1 (W4 m ρ c) (Proc.devRef .tc main_v19) = _
  generalize W4 m ρ c = Wv at h ⊢
  after_results
  exact h

theorem W5_norm (c : Dev nD) : W5 m ρ c (Proc.devRef .tc main_v14) = Cert.ReferenceIdeal.Read.val_main_v41 (F := Ideal) (a1 m c) (a2 m c) (a3 m c) (a4 m c) (a5 m c) (a6 m c) (a7 m c) (a8 m c) := by
  have h := W4_norm m ρ c
  show StableHlo.after hostOps2_1 (W4 m ρ c) (Proc.devRef .tc main_v14) = _
  generalize W4 m ρ c = Wv at h ⊢
  after_results
  exact h

/-- The mask as a column. -/
theorem W6_maskCol (c : Dev nD) : W6 m ρ c (Proc.devRef .tc main_v23) = Cert.ReferenceIdeal.Read.val_main_v50 (F := Ideal) (a0 m c) := by
  have h1 := W5_mask m ρ c
  show StableHlo.after hostOps2_2 (W5 m ρ c) (Proc.devRef .tc main_v23) = _
  generalize W5 m ρ c = Wv at h1 ⊢
  after_results
  rw [h1]
  rfl

/-- The gathered normalized rows. -/
theorem W6_rows (c : Dev nD) :
    W6 m ρ c (Proc.devRef .tc main_v30) = Cert.ReferenceIdeal.Read.val_main_v57 (F := Ideal) (a0 m c) (a1 m c) (a2 m c) (a3 m c) (a4 m c) (a5 m c) (a6 m c) (a7 m c) (a8 m c) := by
  have h1 := W5_clamped m ρ c
  have h2 := W5_norm m ρ c
  show StableHlo.after hostOps2_2 (W5 m ρ c) (Proc.devRef .tc main_v30) = _
  generalize W5 m ρ c = Wv at h1 h2 ⊢
  after_results
  rw [h1, h2]
  rfl

/-- The zero the select falls back to. -/
theorem W6_zero (c : Dev nD) : W6 m ρ c (Proc.devRef .tc main_cst_8) = Cert.ReferenceIdeal.Read.val_main_cst_13 (F := Ideal) := by
  show StableHlo.after hostOps2_2 (W5 m ρ c) (Proc.devRef .tc main_cst_8) = _
  generalize W5 m ρ c = Wv
  after_results
  rfl

/-- THE RESULT at the last boundary is the reference's last stage of the arguments: the select of the mask column
    repeated along the rows, the gathered rows and zero. The three buffers the select reads are kept as they stand at
    the boundary until both sides are the same operations of them. -/
theorem result_eq (c : Dev nD) :
    W7 m ρ c (Proc.devRef .tc main_v31) = Cert.ReferenceIdeal.Read.val_main_v58 (F := Ideal) (a0 m c) (a1 m c) (a2 m c) (a3 m c) (a4 m c) (a5 m c) (a6 m c) (a7 m c) (a8 m c) := by
  have h1 := W6_maskCol m ρ c
  have h2 := W6_rows m ρ c
  have h3 := W6_zero m ρ c
  show StableHlo.after hostOps2_3 (W6 m ρ c) (Proc.devRef .tc main_v31) = _
  generalize W6 m ρ c = Wv at h1 h2 h3 ⊢
  after_results
  rw [show Cert.ReferenceIdeal.Read.val_main_v58 (F := Ideal) (a0 m c) (a1 m c) (a2 m c) (a3 m c) (a4 m c) (a5 m c) (a6 m c) (a7 m c) (a8 m c)
      = select (broadcastInDim S500000x128 ![0, 1] bcast_S500000x1_S500000x128_0_1 (Cert.ReferenceIdeal.Read.val_main_v50 (F := Ideal) (a0 m c)))
          (Cert.ReferenceIdeal.Read.val_main_v57 (F := Ideal) (a0 m c) (a1 m c) (a2 m c) (a3 m c) (a4 m c) (a5 m c) (a6 m c) (a7 m c) (a8 m c))
          (broadcastInDim S500000x128 ![] bcast_S_S500000x128 (id (Cert.ReferenceIdeal.Read.val_main_cst_13 (F := Ideal)))) from rfl]
  rw [← h1, ← h2, ← h3]
  rfl

/-! ## The run -/

/-- Every weakly fair execution of the kernel program terminates without a fault, with the result at the reference's
    composed term of the launch arguments and the arguments unchanged. -/
theorem run : θ_run defs (onTc (τ := τ) (main (F := Ideal))) ⟨m, fun _ => 0, ρ⟩ (fun r => ∀ c : Dev nD,
      r.2.mem ((c.tc : Thread nD τ).loc main_v31) = Cert.ReferenceIdeal.Read.val_main_v58 (F := Ideal) (a0 m c) (a1 m c) (a2 m c) (a3 m c) (a4 m c) (a5 m c) (a6 m c) (a7 m c) (a8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.Named.run m ρ)

end Cert.KernelIdeal.Whole

end
-- ==== Proof.lean ====
/-
  A two-stage graph layer with a masked read-out, as a tiled kernel program against a plain array program, equal over
  the extended reals.

  Both programs compute, from a table of 100000 embeddings of width 128: the affine layer h = E·W + b; for each of
  1.6 million edges the row of h its column index names, scaled by the edge's value, added into the row its row index
  names; then, row by row, the clamp at zero and the normalization (x − mean)·(variance + ε)^(−1/2)·γ + β over the 128
  entries of the row; and finally, for each of 500000 queries, the normalized row the clamped query index names where
  the query is in range, zero elsewhere.

  The kernel program runs the affine layer and the normalization as two tiled regions, each walking the 100000 rows in
  25 blocks of 4000, and does the gather, the scatter-add and the read-out with the same array operations as the
  reference. The reference does everything with array operations. The two dense stages differ only in arrangement:
  a block of rows at a time instead of all rows at once; a block product into a zero accumulator on low-precision
  copies instead of one matrix product (on extended reals a change of format is the identity and both products are the
  plain sum over the contracted axis); a lane reduction instead of a reduction from a zero initial value. Both stages
  read, for an entry of row r, only row r, so the blocks of the result are the blocks of the whole-array function. No
  law used needs finiteness: the sides are the same sums, quotients and products in the same order.

  The modules: `Spec` states the two dense stages as whole-array functions and their row locality. `LinearBlock` and
  `LayerNormBlock` read what one grid point stores as those functions of the loaded blocks; `LinearArray` and
  `LayerNormArray` put the 25 blocks together into the region's output array. `ReferenceSpec` reads the reference's
  corresponding operations as the same functions. `KernelIdealNamed` is the kernel program's run with the result
  buffer kept in the post; `KernelIdealStages` and `KernelIdealWhole` read that buffer back through the program's
  segments to the reference's composed term. Here the five claims are put together.
-/
import proofs.«120517_j39462159515868_1_alg».proof.Defs
import proofs.«120517_j39462159515868_1_alg».proof.Proof.Gen.Kernel
import proofs.«120517_j39462159515868_1_alg».proof.Proof.Gen.Kernel.Skeleton
import proofs.«120517_j39462159515868_1_alg».proof.Proof.Gen.Kernel.Launch
import proofs.«120517_j39462159515868_1_alg».proof.Proof.Gen.Kernel.Points
import proofs.«120517_j39462159515868_1_alg».proof.Proof.Gen.Kernel.Frame
import proofs.«120517_j39462159515868_1_alg».proof.Proof.Gen.KernelIdeal
import proofs.«120517_j39462159515868_1_alg».proof.Proof.Gen.KernelIdeal.Skeleton
import proofs.«120517_j39462159515868_1_alg».proof.Proof.Gen.KernelIdeal.Launch
import proofs.«120517_j39462159515868_1_alg».proof.Proof.Gen.KernelIdeal.Points
import proofs.«120517_j39462159515868_1_alg».proof.Proof.Gen.KernelIdeal.Frame
import proofs.«120517_j39462159515868_1_alg».proof.Proof.Gen.ReferenceIdeal
import proofs.«120517_j39462159515868_1_alg».proof.Proof.Gen.ReferenceIdeal.Run
import proofs.«120517_j39462159515868_1_alg».proof.Proof.Gen.ReferenceIdeal.Read
import proofs.«120517_j39462159515868_1_alg».proof.Proof.Gen.Pre_finite_inputs
import proofs.«120517_j39462159515868_1_alg».proof.Proof.KernelIdealWhole
import Idealize.ShloMosaic.Adequacy
import Idealize.ShloMosaic.Init

noncomputable section

namespace Cert.Proof

open Idealize.ShloMosaic Idealize.SL.Sem

/-- The kernel program as printed runs, faults nowhere and leaves its arguments as launched. -/
theorem frame_kernel : Cert.frame_Kernel := fun m ρ _ => Cert.Kernel.Gen.frame m ρ

/-- The same of its reading over the extended reals. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel program was rewritten to read it over the extended reals. -/
theorem preserves : Cert.preserves_Kernel_KernelIdeal := trivial

/-- From memories that agree on the arguments both programs end with the same result: the reference's composed term
    of the arguments, which the kernel program's result buffer holds at its last boundary. -/
theorem algebraic : Cert.algebraic_KernelIdeal_ReferenceIdeal := by
  intro m ρ m' ρ' _ hagree
  refine ⟨fun c => Cert.ReferenceIdeal.Read.val_main_v58 (F := Ideal) (Cert.KernelIdeal.Whole.a0 m c)
      (Cert.KernelIdeal.Whole.a1 m c) (Cert.KernelIdeal.Whole.a2 m c) (Cert.KernelIdeal.Whole.a3 m c)
      (Cert.KernelIdeal.Whole.a4 m c) (Cert.KernelIdeal.Whole.a5 m c) (Cert.KernelIdeal.Whole.a6 m c)
      (Cert.KernelIdeal.Whole.a7 m c) (Cert.KernelIdeal.Whole.a8 m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq m' c]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
